-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  main_v8
-- ==== Kernel.lean ====
abbrev S4096x8192 : Shape := ⟨2, ![4096, 8192]⟩
abbrev S1x1 : Shape := ⟨2, ![1, 1]⟩
abbrev S256x8192 : Shape := ⟨2, ![256, 8192]⟩
abbrev S1x256x8192 : Shape := ⟨3, ![1, 256, 8192]⟩
abbrev S1 : Shape := ⟨1, ![1]⟩
abbrev S1x1x1 : Shape := ⟨3, ![1, 1, 1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S1x1, .f32⟩
  | .hbm, ⟨3, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | .local _ .vmem, ⟨4, _⟩ => ⟨S1x1, .f32⟩
  | .local _ .vmem, ⟨5, _⟩ => ⟨S1x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v21 : BitVec 1 := Scalar.cmpi .eq arg0 c15_i32
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x8192_S256x8192_0_0 : ∀ a, (![0, 0] : Fin 2 → Nat) a + S256x8192.size a ≤ S256x8192.size a
  h_S256x8192 : 0 < S256x8192.numel
  shapeCasts_S256x8192_S1x256x8192 : S256x8192.ShapeCasts S1x256x8192
  reduces_S1x256x8192_S1 : S1x256x8192.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .f32 = 32 ∨ (Rect.block (s := S4096x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S4096x8192.size a
  hwx0_1 : ∀ i : grid0.Coords, EltTy.bits .f32 = 32 ∨ (Rect.block (s := S4096x8192) S256x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x8192 : Shape := ⟨2, ![4096, 8192]⟩
abbrev S33554432 : Shape := ⟨1, ![33554432]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S33554432, .f32⟩
  | .hbm, ⟨3, _⟩ => ⟨S33554432, .f32⟩
  | .hbm, ⟨4, _⟩ => ⟨S33554432, .f32⟩
  | .hbm, ⟨5, _⟩ => ⟨S_, .f32⟩
  | .hbm, ⟨6, _⟩ => ⟨S33554432, .f32⟩
  | .hbm, ⟨7, _⟩ => ⟨S33554432, .i1⟩
  | .hbm, ⟨8, _⟩ => ⟨S33554432, .f32⟩
  | .hbm, ⟨9, _⟩ => ⟨S_, .f32⟩
  | .hbm, ⟨10, _⟩ => ⟨S_, .f32⟩
  | .hbm, ⟨11, _⟩ => ⟨S33554432, .f32⟩
  | .hbm, ⟨12, _⟩ => ⟨S33554432, .f32⟩
  | .hbm, ⟨13, _⟩ => ⟨S_, .f32⟩
  | .hbm, ⟨14, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  shapeCasts_S4096x8192_S33554432 : S4096x8192.ShapeCasts S33554432
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.Pieces.lean ====
/-
  What one run of the kernel body leaves behind, as a value.

  The body keeps a running sum in a one-entry scratch buffer. At the grid's first point it first resets the buffer;
  at every point it loads the two input blocks and the buffer, and stores back the buffer's entry plus the sum of the
  blocks' contributions (the arithmetic `k0_pay2`); at the last point it then copies the buffer to the output block.
  So after a run the scratch holds `k0_pay2` of the two blocks and of what the scratch held when the blocks were
  loaded — the reset value `k0_pay1` at the first point, the previous point's contents at the others — and at the
  last point the output block holds the same value, read back from the scratch. Each statement below is that one
  sentence for one control case, at any float instance: a store through the whole one-entry rectangle leaves its
  payload, and a load through it after such a store reads that payload.
-/
import proofs.«147852_j43267500540639_1_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

/-- Every access of the body is through a whole buffer: its rectangle starts at offset zero on both axes. -/
theorem zero_offsets : (![0, 0] : Fin 2 → Nat) = fun _ => 0 := by
  funext a; match a with | ⟨0, _⟩ => rfl | ⟨1, _⟩ => rfl

/-- First point (the reset is taken, the copy-out is not): the scratch ends at the update of the reset value. -/
theorem scratch_A (c : Dev nD) (i : grid0.Coords) (arg1 : Memref sig .tc .vmem S256x8192 .f32) (harg1 : arg1.IsWhole) (arg2 : Memref sig .tc .vmem S256x8192 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S256x8192 .f32) (x1 : Vec F S256x8192 .f32) :
    sout0_A_0 c i arg1 harg1 arg2 harg2 arg3 harg3 arg4 harg4 hc0 hc1 x0 x1 = k0_pay2 x0 x1 (k0_pay1 (F := F)) := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S1x1) zero_offsets]
  simp only [View.readAt_eq_ld, harg1.read_unread, harg2.read_unread, harg3.read_unread, harg4.read_unread,
    View.ld_unit_zero (S := S256x8192) zero_offsets, View.ld_unit_zero (S := S1x1) zero_offsets,
    View.readCov_unit_zero (S := S1x1) _ zero_offsets]

/-- A middle point (neither branch taken): the scratch ends at the update of what the point before left in it. -/
theorem scratch_B (c : Dev nD) (i : grid0.Coords) (arg1 : Memref sig .tc .vmem S256x8192 .f32) (harg1 : arg1.IsWhole) (arg2 : Memref sig .tc .vmem S256x8192 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S256x8192 .f32) (x1 : Vec F S256x8192 .f32) (xs0 : Vec F S1x1 .f32) :
    sout0_B_0 c i arg1 harg1 arg2 harg2 arg3 harg3 arg4 harg4 hc0 hc1 x0 x1 xs0 = k0_pay2 x0 x1 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero zero_offsets]
  simp only [View.readAt_eq_ld, harg1.read_unread, harg2.read_unread, harg3.read_unread, harg4.read_unread,
    View.ld_unit_zero (S := S256x8192) zero_offsets, View.ld_unit_zero (S := S1x1) zero_offsets,
    View.readCov_unit_zero (S := S1x1) _ zero_offsets]

/-- Last point (the copy-out is taken): the scratch ends at the same update … -/
theorem scratch_C (c : Dev nD) (i : grid0.Coords) (arg1 : Memref sig .tc .vmem S256x8192 .f32) (harg1 : arg1.IsWhole) (arg2 : Memref sig .tc .vmem S256x8192 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S256x8192 .f32) (x1 : Vec F S256x8192 .f32) (xs0 : Vec F S1x1 .f32) :
    sout0_C_0 c i arg1 harg1 arg2 harg2 arg3 harg3 arg4 harg4 hc0 hc1 x0 x1 xs0 = k0_pay2 x0 x1 xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero zero_offsets]
  simp only [View.readAt_eq_ld, harg1.read_unread, harg2.read_unread, harg3.read_unread, harg4.read_unread,
    View.ld_unit_zero (S := S256x8192) zero_offsets, View.ld_unit_zero (S := S1x1) zero_offsets,
    View.readCov_unit_zero (S := S1x1) _ zero_offsets]

/-- … and the output block at the scratch's new contents, which the body reads back and stores. -/
theorem output_C (c : Dev nD) (i : grid0.Coords) (arg1 : Memref sig .tc .vmem S256x8192 .f32) (harg1 : arg1.IsWhole) (arg2 : Memref sig .tc .vmem S256x8192 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S256x8192 .f32) (x1 : Vec F S256x8192 .f32) (xs0 : Vec F S1x1 .f32) :
    out0_C_2 c i arg1 harg1 arg2 harg2 arg3 harg3 arg4 harg4 hc0 hc1 x0 x1 xs0 = k0_pay2 x0 x1 xs0 := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero zero_offsets]
  simp only [View.readAt_eq_ld, harg1.read_unread, harg2.read_unread, harg3.read_unread, harg4.read_unread,
    View.ld_unit_zero (S := S256x8192) zero_offsets, View.ld_unit_zero (S := S1x1) zero_offsets,
    View.readCov_unit_zero (S := S1x1) _ zero_offsets]

end Cert.KernelIdeal.Pieces

end
-- ==== Proof.Spec.lean ====
/-
  The function both programs compute, and the two re-indexings that relate their sums.

  For predictions `p` and targets `t` of one shape, an entry contributes `(t − p)²` where the target is not `−1` and
  `0` where it is; the result is the sum of the contributions over all entries. The kernel adds the contributions of
  sixteen blocks of 256 rows one block after the other; the reference flattens the arrays and sums once. On the extended
  reals addition is commutative and associative, so both are the same sum: a sum through a shape cast is the sum over the
  source (the cast is a bijection of the index sets), and the sum over a two-axis array is the sum over its row blocks of
  the sums inside each block (rows `B·R` split as block `s` and row `r` inside it, at row `s·R + r`).
-/
import Idealize.ShloMosaic.PureOps.Ideal
import Idealize.ShloMosaic.PureOps.Ideal.Laws
import Idealize.ShloMosaic.Lib.ValueIdx

noncomputable section

open scoped BigOperators

namespace Cert.MaskedSquares

open Idealize.ShloMosaic Idealize.ShloMosaic.ValueIdx

/-- One entry's contribution: the squared difference where the target differs from `−1`, else zero. The two words are the
    f32 patterns of `−1` and `0`; they are never evaluated, since both programs carry the same ones. -/
def entry (p t : EReal) : EReal :=
  Scalar.select (Ideal.cmp .one t (Ideal.ofBits .f32 0xBF800000#32)) ((t - p) * (t - p)) (Ideal.ofBits .f32 0x00000000#32)

/-- The sum of the contributions over every entry of a pair of arrays of one shape. -/
def total {s : Shape} (p t : s.Idx → EReal) : EReal := ∑ k, entry (p k) (t k)

/-- The kernel's masked squares of a pair of blocks, entry by entry (an ordered "not equal": the extended reals have
    no unordered pair). -/
theorem kernel_masked {s : Shape} (x0 x1 : FVec Ideal s .f32) :
    select (cmpf .one x1 (broadcast s (Scalar.ofBits (F := Ideal) .f32 0xBF800000#32)))
        (mulf (subf x1 x0) (subf x1 x0)) (broadcast s (Scalar.ofBits (F := Ideal) .f32 0x00000000#32))
      = fun i => entry (x0 i) (x1 i) := rfl

/-- A sum through a shape cast is the sum over the source: the cast matches the two index sets one to one. -/
theorem sum_shapeCast {M : Type} [AddCommMonoid M] {s t : Shape} (x : s.Idx → M) (h : s.ShapeCasts t) :
    ∑ j, shapeCast t x h j = ∑ k, x k :=
  Equiv.sum_comp (Shape.reshapeEquiv h) x

/-- The contributions of two arrays read through one shape cast sum to the arrays' own total. -/
theorem total_shapeCast {s t : Shape} (p q : s.Idx → EReal) (h : s.ShapeCasts t) :
    total (shapeCast t p h) (shapeCast t q h) = total p q :=
  sum_shapeCast (fun k => entry (p k) (q k)) h

/-- ROW BLOCKS. The sum over an array of `A = B·R` rows is the sum over the `B` blocks of `R` consecutive rows of the
    sums inside each block; `row s r` names row `r` of block `s`, which sits at `s·R + r`. -/
theorem sum_row_blocks {M : Type} [AddCommMonoid M] {A B R C : ℕ} (h : B * R = A)
    (row : Fin B → Fin R → Fin A) (hrow : ∀ s r, (row s r).val = s.val * R + r.val)
    (g : (⟨2, ![A, C]⟩ : Shape).Idx → M) :
    ∑ k, g k = ∑ s : Fin B, ∑ y : (⟨2, ![R, C]⟩ : Shape).Idx, g (ix2 (row s (y 0)) (y 1)) := by
  rw [sum_idx2]
  have inner : ∀ s : Fin B, (∑ y : (⟨2, ![R, C]⟩ : Shape).Idx, g (ix2 (row s (y 0)) (y 1)))
      = ∑ r : Fin R, ∑ b : Fin C, g (ix2 (row s r) b) := fun s => sum_idx2 _
  simp only [inner]
  rw [← Equiv.sum_comp (finProdFinEquiv.trans (finCongr h)) (fun a => ∑ b : Fin C, g (ix2 a b)), Fintype.sum_prod_type]
  refine Finset.sum_congr rfl fun s _ => Finset.sum_congr rfl fun r _ => ?_
  have e : (finProdFinEquiv.trans (finCongr h)) (s, r) = row s r := by
    refine Fin.ext ?_
    rw [hrow]
    simp only [Equiv.trans_apply, finCongr_apply, Fin.coe_cast, finProdFinEquiv_apply_val]
    ring
  rw [e]

end Cert.MaskedSquares

end
-- ==== Proof.Payload.lean ====
/-
  The body's arithmetic at the ideal instance.

  Read on the extended reals, the update of the running sum is: the scratch's entry plus the total of the
  contributions of the two loaded blocks — the squared difference where the target is not `−1`, zero elsewhere,
  summed over all 256 × 8192 entries of the block. The reset value is the value of the zero word.
-/
import proofs.«147852_j43267500540639_1_alg».proof.Proof.Gen.KernelIdeal.Skeleton
import proofs.«147852_j43267500540639_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Cert.MaskedSquares
open Idealize.ShloMosaic Idealize.ShloMosaic.ValueIdx

/-- The reset stores the zero word's value in the scratch's one entry. -/
theorem reset_value : k0_pay1 (F := Ideal) = fun _ => Ideal.ofBits .f32 0x00000000#32 := by
  unfold k0_pay1
  dsimp only
  rw [shapeCast_self]
  rfl

/-- The reduction's result shape has one axis, of extent one: the reduction is a total sum. -/
theorem unit_axes_S1 : ∀ b, S1.size b = 1 := fun b => match b with | ⟨0, _⟩ => rfl

/-- The update: the scratch's entry plus the total of the two blocks' contributions. The body casts the masked
    squares to a leading unit axis and reduces the two block axes into a one-entry vector (a total sum, and the cast
    only re-indexes it), extracts that entry and adds it to the loaded scratch. -/
theorem update_value (x0 x1 : Vec Ideal S256x8192 .f32) (v : Vec Ideal S1x1 .f32) :
    k0_pay2 (F := Ideal) x0 x1 v = fun j => v j + total x0 x1 := by
  funext j
  unfold k0_pay2
  dsimp only
  rw [shapeCast_self, addf_apply, broadcast_apply, kernel_masked]
  refine congrArg (v j + ·) ?_
  unfold extractAt
  rw [show ∀ (Y : S1.Idx → Ideal .f32) (h : S1.ShapeCasts S1x1x1) (k : S1x1x1.Idx),
      shapeCast S1x1x1 Y h k = Y (Shape.reshapeEquiv h k) from fun _ _ _ => rfl]
  refine (Ideal.multiReduction_add_total _ _ _ unit_axes_S1 _ _ _).trans ?_
  exact sum_shapeCast (fun i => entry (x0 i) (x1 i)) shapeCasts_S256x8192_S1x256x8192

end Cert.KernelIdeal.Payload

end
-- ==== Proof.Accumulate.lean ====
/-
  The running sum across the grid, and what it adds up to.

  After point `n` of the sixteen the scratch's one entry holds the zero word's value plus the totals of blocks
  `0 … n`: the first point resets it and adds block 0's total, every later point adds its own block's total to what
  the point before left. At the last point the output block is a copy of it. Block `t` of an input array is its rows
  `256·t … 256·t + 255`, all columns, so the sixteen block totals are the array's total split by row blocks: the
  running sum after the last point is the zero word's value plus the total over the whole arrays.
-/
import proofs.«147852_j43267500540639_1_alg».proof.Proof.Pieces
import proofs.«147852_j43267500540639_1_alg».proof.Proof.Payload

set_option maxRecDepth 16384

noncomputable section

open scoped BigOperators

namespace Cert.KernelIdeal.Accumulate

open Cert.KernelIdeal Cert.KernelIdeal.Gen Cert.MaskedSquares
open Cert.KernelIdeal.Pieces Cert.KernelIdeal.Payload
open Idealize.ShloMosaic Idealize.ShloMosaic.TcCoe Idealize.ShloMosaic.ValueIdx Idealize.SL.Sem

variable (m : (ℓ : Loc nD τ sig) → Buf (Elt Ideal) ℓ)

/-- The value of the zero word the reset stores (it is `0`, which nothing here needs). -/
abbrev zeroWord : EReal := Ideal.ofBits .f32 0x00000000#32

/-- The predictions' and the targets' arrays as the region finds them, and their blocks at a grid point. -/
abbrev predArr (c : Dev nD) : Vec Ideal S4096x8192 .f32 := V m c main_arg0
abbrev targArr (c : Dev nD) : Vec Ideal S4096x8192 .f32 := V m c main_arg1
abbrev predBlock (c : Dev nD) (t : Fin cfg0.N) : Vec Ideal S256x8192 .f32 := iblk m c 0 t
abbrev targBlock (c : Dev nD) (t : Fin cfg0.N) : Vec Ideal S256x8192 .f32 := iblk m c 1 t

/-- The total of block `t`'s contributions. -/
def blockTotal (c : Dev nD) (t : Fin cfg0.N) : EReal := total (predBlock m c t) (targBlock m c t)

/-- The same by the point's number (zero past the grid, which no sum below reaches). -/
def addend (c : Dev nD) (s : ℕ) : EReal := if h : s < cfg0.N then blockTotal m c ⟨s, h⟩ else 0

/-- THE RUNNING SUM: after point `n` the scratch holds the zero word's value plus the totals of blocks `0 … n`. -/
theorem scratch_after (c : Dev nD) : ∀ (n : ℕ) (hn : n < cfg0.N),
    (outsAt0 m c n hn).2 = fun _ => zeroWord + ∑ s ∈ Finset.range (n + 1), addend m c s
  | 0, hn => by
    rw [show outsAt0 m c 0 hn = _ from outsAt0_A m c ⟨0, hn⟩ rfl (by dsimp only; omega)]
    dsimp only
    rw [scratch_A, update_value, reset_value]
    funext j
    rw [Finset.sum_range_one, show addend m c 0 = blockTotal m c ⟨0, hn⟩ from dif_pos hn]
    rfl
  | n + 1, hn => by
    have hN : cfg0.N = 16 := N_0
    have h0 : ¬(⟨n + 1, hn⟩ : Fin cfg0.N).val % 16 = 0 := by dsimp only; omega
    have step : (outsAt0 m c (n + 1) hn).2
        = fun j => (outsAt0 m c n (Nat.lt_of_succ_lt hn)).2 j + blockTotal m c ⟨n + 1, hn⟩ := by
      by_cases h1 : (⟨n + 1, hn⟩ : Fin cfg0.N).val % 16 = 15
      · rw [show outsAt0 m c (n + 1) hn = _ from outsAt0_C m c ⟨n + 1, hn⟩ h0 h1]
        dsimp only
        rw [scratch_C, update_value]
        rfl
      · rw [show outsAt0 m c (n + 1) hn = _ from outsAt0_B m c ⟨n + 1, hn⟩ h0 h1]
        dsimp only
        rw [scratch_B, update_value]
        rfl
    rw [step, scratch_after c n (Nat.lt_of_succ_lt hn)]
    funext j
    rw [Finset.sum_range_succ _ (n + 1), show addend m c (n + 1) = blockTotal m c ⟨n + 1, hn⟩ from dif_pos hn, add_assoc]

/-- At the last point the output block is what the scratch ends at. -/
theorem output_last (c : Dev nD) (t : Fin cfg0.N) (h1 : t.val % 16 = 15) :
    (outsAt0 m c t.val t.isLt).1 = (outsAt0 m c t.val t.isLt).2 := by
  have hN : cfg0.N = 16 := N_0
  have h0 : ¬t.val % 16 = 0 := by omega
  rw [outsAt0_C m c t h0 h1]
  dsimp only
  rw [output_C, scratch_C]

/-- So it holds the zero word's value plus all sixteen block totals. -/
theorem output_at_last (c : Dev nD) (t : Fin cfg0.N) (h1 : t.val % 16 = 15) :
    (outsAt0 m c t.val t.isLt).1 = fun _ => zeroWord + ∑ s ∈ Finset.range cfg0.N, addend m c s := by
  have hN : cfg0.N = 16 := N_0
  have ht : t.val + 1 = cfg0.N := by have := t.isLt; omega
  rw [output_last m c t h1, scratch_after m c t.val t.isLt, ht]

/-! ## A block is sixteenth of the rows -/

/-- Row `r` of block `t` in the array. -/
def rowOf (t : Fin cfg0.N) (r : Fin 256) : Fin 4096 :=
  ⟨t.val * 256 + r.val, by have := t.isLt; have hN : cfg0.N = 16 := N_0; have := r.isLt; omega⟩

/-- Both input windows have block index `(t, 0)` at point `t`: decided once over the grid. -/
theorem index_pred : ∀ t : Fin cfg0.N, win0_0.index t 0 = t.val ∧ win0_0.index t 1 = 0 :=
  (by decide +kernel : ∀ t : Fin grid0.N, win0_0.index t 0 = t.val ∧ win0_0.index t 1 = 0)
theorem index_targ : ∀ t : Fin cfg0.N, win0_1.index t 0 = t.val ∧ win0_1.index t 1 = 0 :=
  (by decide +kernel : ∀ t : Fin grid0.N, win0_1.index t 0 = t.val ∧ win0_1.index t 1 = 0)

/-- Entry `(r, col)` of the predictions' block `t` is entry `(256·t + r, col)` of the array … -/
theorem predBlock_apply (c : Dev nD) (t : Fin cfg0.N) (y : S256x8192.Idx) :
    predBlock m c t y = predArr m c (ix2 (rowOf t (y 0)) (y 1)) := by
  have hi := index_pred t
  show iblk m c 0 t y = V m c main_arg0 _
  unfold iblk
  rw [View.read_apply]
  show V m c main_arg0 _ = V m c main_arg0 _
  congr 1
  funext a
  apply Fin.ext
  match a with
  | ⟨0, _⟩ => show win0_0.index t 0 * 256 + 1 * (y 0).val = t.val * 256 + (y 0).val; rw [hi.1]; omega
  | ⟨1, _⟩ => show win0_0.index t 1 * 8192 + 1 * (y 1).val = (y 1).val; rw [hi.2]; omega

/-- … and likewise for the targets. -/
theorem targBlock_apply (c : Dev nD) (t : Fin cfg0.N) (y : S256x8192.Idx) :
    targBlock m c t y = targArr m c (ix2 (rowOf t (y 0)) (y 1)) := by
  have hi := index_targ t
  show iblk m c 1 t y = V m c main_arg1 _
  unfold iblk
  rw [View.read_apply]
  show V m c main_arg1 _ = V m c main_arg1 _
  congr 1
  funext a
  apply Fin.ext
  match a with
  | ⟨0, _⟩ => show win0_1.index t 0 * 256 + 1 * (y 0).val = t.val * 256 + (y 0).val; rw [hi.1]; omega
  | ⟨1, _⟩ => show win0_1.index t 1 * 8192 + 1 * (y 1).val = (y 1).val; rw [hi.2]; omega

/-- The sixteen block totals add up to the whole arrays' total: the rows split into sixteen blocks of 256. -/
theorem sum_blockTotals (c : Dev nD) :
    ∑ s ∈ Finset.range cfg0.N, addend m c s = total (predArr m c) (targArr m c) := by
  have hN : cfg0.N = 16 := N_0
  rw [Finset.sum_range]
  have hadd : ∀ t : Fin cfg0.N, addend m c t.val = blockTotal m c t := fun t => dif_pos t.isLt
  simp only [hadd]
  unfold total
  rw [sum_row_blocks (B := cfg0.N) (R := 256) (by rw [hN]) rowOf (fun _ _ => rfl)
    (fun k => entry (predArr m c k) (targArr m c k))]
  refine Finset.sum_congr rfl fun t _ => ?_
  unfold blockTotal total
  refine Finset.sum_congr rfl fun y _ => ?_
  rw [predBlock_apply, targBlock_apply]

end Cert.KernelIdeal.Accumulate

end
-- ==== Proof.KernelRun.lean ====
/-
  The kernel's run, read as a value.

  The output array has one entry, and only the last grid point writes its block back; that block is the array. So after
  the region the array holds what the last point left in the output block: the zero word's value plus the total of the
  contributions over the whole argument arrays. The one host operation after the region reshapes the one-entry array
  to a scalar, which keeps the entry. Every weakly fair execution therefore ends with the result at that value and the
  arguments unchanged.
-/
import proofs.«147852_j43267500540639_1_alg».proof.Proof.Accumulate
import Idealize.ShloMosaic.Lib.StableHlo.Run

set_option maxRecDepth 16384

noncomputable section

open scoped BigOperators

namespace Cert.KernelIdeal.Result

open Cert.KernelIdeal Cert.KernelIdeal.Gen Cert.MaskedSquares Cert.KernelIdeal.Accumulate
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result as a number: the zero word's value plus the total over the whole arrays. -/
def value (c : Dev nD) : EReal := zeroWord + total (predArr m c) (targArr m c)

/-- The one-entry output array holding it. -/
abbrev arrayResult (c : Dev nD) : Buf (Elt Ideal) ((c : Thread nD τ).loc main_v0) := fun _ => value m c

/-- The one write-back, at the last point, writes it (any block of a constant array is constant). -/
theorem flushed_eq (c : Dev nD) (t : Fin cfg0.N) (hf : (cfg0.win 2).flush t = true) :
    (dats m 0 c).flushed 2 t = ((cfg0.win 2).blk t).view.read (Elt Ideal) (arrayResult m c) := by
  have h15 : t.val % 16 = 15 := (flush0_2 t).mp hf
  show (cfg0.win 2).cut (grid0.coords t) ((dats m 0 c).after 2 t) = _
  rw [after0_2, output_at_last m c t h15, sum_blockTotals]
  rfl

/-- The last point's block is the whole one-entry array. -/
theorem last_block_covers : ∀ i : S1x1.Idx, i ∈ ((cfg0.win 2).blk t0_15).view.set :=
  (by decide +kernel : ∀ i : S1x1.Idx, i ∈ ((cfg0.win 2).blk t0_15).view.set)

/-- So after the region the output array holds the result. -/
theorem final (c : Dev nD) : (dats m 0 c).arrAt 2 cfg0.N = arrayResult m c :=
  (dats m 0 c).arrAt_eq_of_cover 2 (arrayResult m c) (flushed_eq m c) fun i =>
    ⟨t0_15, (flush0_2 t0_15).mpr rfl, last_block_covers i⟩

/-- The scalar result is not one of the region's arrays: the run's post states it as the host tail's result. -/
theorem result_bypasses : main_v1 ∈ Pipeline.restRefs sig (cfgs 0).spec :=
  Pipeline.mem_restRefs_of main_v1 rfl (fun w => by fin_cases w <;> decide)

/-- The host tail reshapes the one-entry array to a scalar: the entry is kept. -/
theorem tail_value (c : Dev nD) :
    Pipeline.afterTail₀ cfgs (dats m) 0 (V0 m) [hostOps1] c main_v1 = fun _ => value m c := by
  unfold Pipeline.afterTail₀
  show StableHlo.after hostOps1 _ (Proc.devRef .tc main_v1) = _
  after_results
  have e : Pipeline.withArrays (cfgs 0).spec c (V0 m c) (fun w => (dats m 0 c).arrAt w (cfgs 0).N)
      (Proc.tc.devRef main_v0) = arrayResult m c :=
    (Pipeline.withArrays_arr spec0 launch0.win.arr_inj c _ _ 2).trans (final m c)
  rw [e]
  rfl

/-- THE RUN: every weakly fair execution ends with the scalar result at the value and the arguments unchanged. -/
theorem run : θ_run defs (onTc (τ := τ) (main (F := Ideal))) ⟨m, fun _ => 0, ρ⟩ fun r => ∀ c : Dev nD,
      r.2.mem ((c.tc : Thread nD τ).loc main_v1) = (fun _ => value m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v1 result_bypasses).trans (tail_value m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Result

end
-- ==== Proof.RefValue.lean ====
/-
  The reference, read as the same function.

  The reference flattens both arrays, forms the masked squares entry by entry — the squared difference where the
  target is not `−1` (an unordered "not equal", which on the extended reals is plain inequality), zero elsewhere —
  and sums them from a zero initial value. The flattening is a shape cast, which only re-indexes the sum, so the
  result is the zero word's value plus the total of the contributions over the two arrays.
-/
import proofs.«147852_j43267500540639_1_alg».proof.Proof.Gen.ReferenceIdeal.Read
import proofs.«147852_j43267500540639_1_alg».proof.Proof.Spec

noncomputable section

open scoped BigOperators

namespace Cert.ReferenceIdeal.RefValue

open Cert.ReferenceIdeal Cert.ReferenceIdeal.Gen Cert.ReferenceIdeal.Read Cert.MaskedSquares
open Idealize.ShloMosaic

/-- The selected values of the flattened arrays are the contributions of the flattened entries. -/
theorem masked_flat (p t : (⟨S4096x8192, .f32⟩ : BufTy).Contents (Elt Ideal)) :
    val_main_v6 (F := Ideal) p t
      = fun j => entry (shapeCast S33554432 p shapeCasts_S4096x8192_S33554432 j)
          (shapeCast S33554432 t shapeCasts_S4096x8192_S33554432 j) := rfl

/-- The reference's result: the zero word's value plus the total over the two arrays. -/
theorem result_eq (p t : (⟨S4096x8192, .f32⟩ : BufTy).Contents (Elt Ideal)) :
    val_main_v7 (F := Ideal) p t = fun _ => Ideal.ofBits .f32 0x00000000#32 + total p t := by
  funext i
  rw [val_main_v7_apply, masked_flat]
  refine congrArg (Ideal.ofBits .f32 0x00000000#32 + ·) ?_
  exact total_shapeCast p t shapeCasts_S4096x8192_S33554432

end Cert.ReferenceIdeal.RefValue

end
-- ==== Proof.lean ====
/-
  A masked sum of squared errors: for predictions `p` and targets `t`, both f32[4096, 8192], the sum over all entries
  of `(t − p)²` where `t ≠ −1` and of `0` where `t = −1`.

  The kernel walks sixteen blocks of 256 rows. It keeps a running sum in a one-entry scratch: reset at the first block,
  increased at every block by the total of that block's masked squares, copied to the one-entry output at the last
  block; a final reshape makes the output a scalar. The reference flattens both arrays, forms the masked squares, and
  sums them once from zero. Over the extended reals both results are the zero word's value plus the total of the
  masked squares over the arrays: addition there is commutative and associative, so the sum over all rows is the sum
  over the sixteen row blocks of the sums inside each block, and the flattening only re-indexes the sum. The kernel
  compares with an ordered "not equal" and the reference with an unordered one; on the extended reals both are
  inequality. No step needs the inputs to be finite, so the precondition is never opened.

  The three programs' runs and frames are taken from the modules generated for them; the idealization rewrote nothing.
  The modules beside this one read the kernel's run as a value (the body's pieces, its arithmetic, the running sum
  over the grid, the array after the run and the reshape) and the reference's run as the same function.
-/
import proofs.«147852_j43267500540639_1_alg».proof.Defs
import proofs.«147852_j43267500540639_1_alg».proof.Proof.Gen.Kernel
import proofs.«147852_j43267500540639_1_alg».proof.Proof.Gen.Kernel.Skeleton
import proofs.«147852_j43267500540639_1_alg».proof.Proof.Gen.Kernel.Launch
import proofs.«147852_j43267500540639_1_alg».proof.Proof.Gen.Kernel.Points
import proofs.«147852_j43267500540639_1_alg».proof.Proof.Gen.Kernel.Frame
import proofs.«147852_j43267500540639_1_alg».proof.Proof.Gen.KernelIdeal
import proofs.«147852_j43267500540639_1_alg».proof.Proof.Gen.KernelIdeal.Skeleton
import proofs.«147852_j43267500540639_1_alg».proof.Proof.Gen.KernelIdeal.Launch
import proofs.«147852_j43267500540639_1_alg».proof.Proof.Gen.KernelIdeal.Points
import proofs.«147852_j43267500540639_1_alg».proof.Proof.Gen.KernelIdeal.Frame
import proofs.«147852_j43267500540639_1_alg».proof.Proof.Gen.ReferenceIdeal
import proofs.«147852_j43267500540639_1_alg».proof.Proof.Gen.ReferenceIdeal.Run
import proofs.«147852_j43267500540639_1_alg».proof.Proof.Gen.ReferenceIdeal.Read
import proofs.«147852_j43267500540639_1_alg».proof.Proof.Gen.Pre_finite_inputs
import proofs.«147852_j43267500540639_1_alg».proof.Proof.KernelRun
import proofs.«147852_j43267500540639_1_alg».proof.Proof.RefValue
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments, both programs end at the zero word's value plus the total of the
    masked squares over those arguments. -/
theorem algebraic : Cert.algebraic_KernelIdeal_ReferenceIdeal := by
  intro m ρ m' ρ' _ hagree
  refine ⟨fun c => fun _ => Cert.KernelIdeal.Result.value m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
